-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x16 : Shape := ⟨2, ![600000, 16]⟩
abbrev S128x16 : Shape := ⟨2, ![128, 16]⟩
abbrev S128 : Shape := ⟨1, ![128]⟩
abbrev S128x128 : Shape := ⟨2, ![128, 128]⟩
abbrev S2x600000 : Shape := ⟨2, ![2, 600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x16 : S_.BroadcastsInDim S600000x16 (![] : Fin 0 → Fin S600000x16.rank)
  reducesTo_S600000x16_S_d0_1 : S600000x16.ReducesTo [0, 1] S_
  bcast_S_S128x16 : S_.BroadcastsInDim S128x16 (![] : Fin 0 → Fin S128x16.rank)
  reducesTo_S128x16_S_d0_1 : S128x16.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S600000x16 .f32) (main_arg2 : FVec F S128x16 .f32) (main_arg3 : FVec F S128 .f32) (main_arg4 : FVec F S128x128 .f32) (main_arg5 : FVec F S128 .f32) (main_arg6 : IVec S2x600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x16 .f32 := Host.absf main_arg1
  let main_cst_0 : FVec F S_ .f32 := constant S_ .f32 0x7F800000#32
  let main_v5 : FVec F S600000x16 .f32 := broadcastInDim S600000x16 ![] bcast_S_S600000x16 main_cst_0
  let main_v6 : IVec S600000x16 1 := cmpf .olt main_v4 main_v5
  let main_c_1 : IVec S_ 1 := constantI S_ 1 1#1
  let main_v7 : IVec S_ 1 := (fun x v => Host.reduce IntOp.andi x v reducesTo_S600000x16_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S50000x128 : Shape := ⟨2, ![50000, 128]⟩
abbrev S600000x16 : Shape := ⟨2, ![600000, 16]⟩
abbrev S128x16 : Shape := ⟨2, ![128, 16]⟩
abbrev S128 : Shape := ⟨1, ![128]⟩
abbrev S128x128 : Shape := ⟨2, ![128, 128]⟩
abbrev S2x600000 : Shape := ⟨2, ![2, 600000]⟩
abbrev S1x600000 : Shape := ⟨2, ![1, 600000]⟩
abbrev S600000 : Shape := ⟨1, ![600000]⟩
abbrev S16x128 : Shape := ⟨2, ![16, 128]⟩
abbrev S1x128 : Shape := ⟨2, ![1, 128]⟩
abbrev S600000x128 : Shape := ⟨2, ![600000, 128]⟩
abbrev S15000x16 : Shape := ⟨2, ![15000, 16]⟩
abbrev S15000x128 : Shape := ⟨2, ![15000, 128]⟩
abbrev S_ : Shape := ⟨0, ![]⟩
abbrev S600000x1 : Shape := ⟨2, ![600000, 1]⟩
abbrev S5000x128 : Shape := ⟨2, ![5000, 128]⟩
abbrev S50000 : Shape := ⟨1, ![50000]⟩
abbrev S50000x1 : Shape := ⟨2, ![50000, 1]⟩

abbrev nBuf : Space → Nat
  | .hbm => 78
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S600000x16, .f32⟩
  | .hbm, ⟨2, _⟩ => ⟨S128x16, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x600000, .i32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S16x128, .f32⟩
  | .hbm, ⟨12, _⟩ => ⟨S1x128, .f32⟩
  | .hbm, ⟨13, _⟩ => ⟨S600000x128, .f32⟩
  | .hbm, ⟨14, _⟩ => ⟨S_, .f32⟩
  | .hbm, ⟨15, _⟩ => ⟨S50000x128, .f32⟩
  | .hbm, ⟨16, _⟩ => ⟨S600000x1, .i32⟩
  | .hbm, ⟨17, _⟩ => ⟨S50000x128, .f32⟩
  | .hbm, ⟨18, _⟩ => ⟨S128x128, .f32⟩
  | .hbm, ⟨19, _⟩ => ⟨S50000x128, .f32⟩
  | .hbm, ⟨20, _⟩ => ⟨S_, .f32⟩
  | .hbm, ⟨21, _⟩ => ⟨S600000, .f32⟩
  | .hbm, ⟨22, _⟩ => ⟨S_, .f32⟩
  | .hbm, ⟨23, _⟩ => ⟨S50000, .f32⟩
  | .hbm, ⟨24, _⟩ => ⟨S600000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000, .f32⟩
  | .hbm, ⟨55, _⟩ => ⟨S600000, .f32⟩
  | .hbm, ⟨56, _⟩ => ⟨S600000x1, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x128, .f32⟩
  | .hbm, ⟨66, _⟩ => ⟨S600000x128, .f32⟩
  | .hbm, ⟨67, _⟩ => ⟨S600000x128, .f32⟩
  | .hbm, ⟨68, _⟩ => ⟨S_, .f32⟩
  | .hbm, ⟨69, _⟩ => ⟨S50000x128, .f32⟩
  | .hbm, ⟨70, _⟩ => ⟨S600000x1, .i32⟩
  | .hbm, ⟨71, _⟩ => ⟨S50000x128, .f32⟩
  | .hbm, ⟨72, _⟩ => ⟨S50000, .f32⟩
  | .hbm, ⟨73, _⟩ => ⟨S50000x1, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .local _ .vmem, ⟨0, _⟩ => ⟨S15000x16, .f32⟩
  | .local _ .vmem, ⟨1, _⟩ => ⟨S15000x16, .f32⟩
  | .local _ .vmem, ⟨2, _⟩ => ⟨S16x128, .f32⟩
  | .local _ .vmem, ⟨3, _⟩ => ⟨S1x128, .f32⟩
  | .local _ .vmem, ⟨4, _⟩ => ⟨S15000x128, .f32⟩
  | .local _ .vmem, ⟨5, _⟩ => ⟨S15000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S15000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S15000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x16_S16x128_1_0 : S128x16.Transposes [1, 0] S16x128
  shapeCasts_S128_S1x128 : S128.ShapeCasts S1x128
  inb_S15000x16_S15000x16_0_0 : ∀ a, (![0, 0] : Fin 2 → Nat) a + S15000x16.size a ≤ S15000x16.size a
  h_S15000x16 : 0 < S15000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S15000x128 : S1x128.Broadcasts S15000x128
  inb_S15000x128_S15000x128_0_0 : ∀ a, (![0, 0] : Fin 2 → Nat) a + S15000x128.size a ≤ S15000x128.size a
  h_S15000x128 : 0 < S15000x128.numel
  bcast_S_S50000x128 : S_.BroadcastsInDim S50000x128 (![] : Fin 0 → Fin S50000x128.rank)
  bcast_S600000_S600000x1_0 : S600000.BroadcastsInDim S600000x1 (![0] : Fin 1 → Fin S600000x1.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S600000 : S_.BroadcastsInDim S600000 (![] : Fin 0 → Fin S600000.rank)
  bcast_S_S50000 : S_.BroadcastsInDim S50000 (![] : Fin 0 → Fin S50000.rank)
  bcast_S600000x1_S600000x128_0_1 : S600000x1.BroadcastsInDim S600000x128 (![0, 1] : Fin 2 → Fin S600000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  broadcasts_S1x128_S5000x128 : S1x128.Broadcasts S5000x128
  dot_S15000x16_S16x128_S15000x128_1_0_0_1_n_n_wf : DotDims.WF S15000x16 S16x128 S15000x128 [1] [0] [0] [1] [] []
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S15000x16.size a ≤ S600000x16.size a
  hwx0_0 : ∀ i : grid0.Coords, EltTy.bits .f32 = 32 ∨ (Rect.block (s := S600000x16) S15000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S15000x128.size a ≤ S600000x128.size a
  hwx0_3 : ∀ i : grid0.Coords, EltTy.bits .f32 = 32 ∨ (Rect.block (s := S600000x128) S15000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def dot_S15000x16_S16x128_S15000x128_1_0_0_1_n_n : DotDims S15000x16 S16x128 S15000x128 where
  lhsContracting := [1]
  rhsContracting := [0]
  lhsNonContracting := [0]
  rhsNonContracting := [1]
  lhsBatch := []
  rhsBatch := []
  wf := dot_S15000x16_S16x128_S15000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf

abbrev win0_0 : Pipeline.Window sig grid0 :=
  Pipeline.Window.ofSpec (Memref.whole main_arg1) S15000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S15000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000x16 : Shape := ⟨2, ![600000, 16]⟩
abbrev S128x16 : Shape := ⟨2, ![128, 16]⟩
abbrev S128 : Shape := ⟨1, ![128]⟩
abbrev S128x128 : Shape := ⟨2, ![128, 128]⟩
abbrev S2x600000 : Shape := ⟨2, ![2, 600000]⟩
abbrev S1x600000 : Shape := ⟨2, ![1, 600000]⟩
abbrev S600000 : Shape := ⟨1, ![600000]⟩
abbrev S16x128 : Shape := ⟨2, ![16, 128]⟩
abbrev S600000x128 : Shape := ⟨2, ![600000, 128]⟩
abbrev S1x128 : Shape := ⟨2, ![1, 128]⟩
abbrev S_ : Shape := ⟨0, ![]⟩
abbrev S600000x1 : Shape := ⟨2, ![600000, 1]⟩
abbrev S50000 : Shape := ⟨1, ![50000]⟩
abbrev S50000x1 : Shape := ⟨2, ![50000, 1]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x16, .f32⟩
  | .hbm, ⟨2, _⟩ => ⟨S128x16, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S2x600000, .i32⟩
  | .hbm, ⟨7, _⟩ => ⟨S1x600000, .i32⟩
  | .hbm, ⟨8, _⟩ => ⟨S600000, .i32⟩
  | .hbm, ⟨9, _⟩ => ⟨S1x600000, .i32⟩
  | .hbm, ⟨10, _⟩ => ⟨S600000, .i32⟩
  | .hbm, ⟨11, _⟩ => ⟨S16x128, .f32⟩
  | .hbm, ⟨12, _⟩ => ⟨S600000x128, .f32⟩
  | .hbm, ⟨13, _⟩ => ⟨S1x128, .f32⟩
  | .hbm, ⟨14, _⟩ => ⟨S600000x128, .f32⟩
  | .hbm, ⟨15, _⟩ => ⟨S600000x128, .f32⟩
  | .hbm, ⟨16, _⟩ => ⟨S_, .f32⟩
  | .hbm, ⟨17, _⟩ => ⟨S50000x128, .f32⟩
  | .hbm, ⟨18, _⟩ => ⟨S600000x1, .i32⟩
  | .hbm, ⟨19, _⟩ => ⟨S50000x128, .f32⟩
  | .hbm, ⟨20, _⟩ => ⟨S50000x128, .f32⟩
  | .hbm, ⟨21, _⟩ => ⟨S128x128, .f32⟩
  | .hbm, ⟨22, _⟩ => ⟨S50000x128, .f32⟩
  | .hbm, ⟨23, _⟩ => ⟨S_, .f32⟩
  | .hbm, ⟨24, _⟩ => ⟨S600000, .f32⟩
  | .hbm, ⟨25, _⟩ => ⟨S_, .f32⟩
  | .hbm, ⟨26, _⟩ => ⟨S50000, .f32⟩
  | .hbm, ⟨27, _⟩ => ⟨S600000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000, .f32⟩
  | .hbm, ⟨58, _⟩ => ⟨S600000, .f32⟩
  | .hbm, ⟨59, _⟩ => ⟨S600000x1, .f32⟩
  | .hbm, ⟨60, _⟩ => ⟨S_, .i32⟩
  | .hbm, ⟨61, _⟩ => ⟨S600000, .i32⟩
  | .hbm, ⟨62, _⟩ => ⟨S600000, .i1⟩
  | .hbm, ⟨63, _⟩ => ⟨S_, .i32⟩
  | .hbm, ⟨64, _⟩ => ⟨S600000, .i32⟩
  | .hbm, ⟨65, _⟩ => ⟨S600000, .i32⟩
  | .hbm, ⟨66, _⟩ => ⟨S600000, .i32⟩
  | .hbm, ⟨67, _⟩ => ⟨S600000x1, .i32⟩
  | .hbm, ⟨68, _⟩ => ⟨S600000x128, .f32⟩
  | .hbm, ⟨69, _⟩ => ⟨S600000x128, .f32⟩
  | .hbm, ⟨70, _⟩ => ⟨S600000x128, .f32⟩
  | .hbm, ⟨71, _⟩ => ⟨S_, .f32⟩
  | .hbm, ⟨72, _⟩ => ⟨S50000x128, .f32⟩
  | .hbm, ⟨73, _⟩ => ⟨S600000x1, .i32⟩
  | .hbm, ⟨74, _⟩ => ⟨S50000x128, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call1_cst : Ref sig .tc := ⟨.hbm, 83, rfl⟩
abbrev main_call1_v0 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x16_S16x128_1_0 : S128x16.Transposes [1, 0] S16x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  bcast_S600000_S600000x1_0 : S600000.BroadcastsInDim S600000x1 (![0] : Fin 1 → Fin S600000x1.rank)
  transposes_S128x128_S128x128_1_0 : S128x128.Transposes [1, 0] S128x128
  bcast_S_S600000 : S_.BroadcastsInDim S600000 (![] : Fin 0 → Fin S600000.rank)
  bcast_S_S50000 : S_.BroadcastsInDim S50000 (![] : Fin 0 → Fin S50000.rank)
  bcast_S600000x1_S600000x128_0_1 : S600000x1.BroadcastsInDim S600000x128 (![0, 1] : Fin 2 → Fin S600000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  dot_S600000x16_S16x128_S600000x128_1_0_0_1_n_n_wf : DotDims.WF S600000x16 S16x128 S600000x128 [1] [0] [0] [1] [] []
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]

variable [Facts₀]

def dot_S600000x16_S16x128_S600000x128_1_0_0_1_n_n : DotDims S600000x16 S16x128 S600000x128 where
  lhsContracting := [1]
  rhsContracting := [0]
  lhsNonContracting := [0]
  rhsNonContracting := [1]
  lhsBatch := []
  rhsBatch := []
  wf := dot_S600000x16_S16x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf

class Facts : Prop extends Facts₀ where

variable [Facts]
-- ==== Proof.EdgeLayer.lean ====
/-
  The first launch, read as one array.

  Each of its 40 grid points takes 15000 consecutive rows of the edge features (a 600000 x 16 matrix), multiplies them
  by the whole 16 x 128 weight matrix and adds the one-row bias to every row. A row of a matrix product depends on the
  same row of the left factor alone, so the 40 blocks of 15000 rows, written back side by side, are the rows of the
  product of the WHOLE feature matrix with the weights, plus the bias row repeated down all 600000 rows.
-/
import proofs.«162904_j53257594471012_1_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.KernelIdeal.EdgeLayer

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered: any
variable (V : (c : Dev nD) → (b : Ref sig .tc) → Buf (Elt Ideal) ((c : Thread nD τ).loc b))

/-! ## The arithmetic of one entry -/

/-- The zero offset, spelt as the constant function. -/
theorem zero_offset : (![0, 0] : Fin 2 → Nat) = fun _ => 0 := funext fun a => by fin_cases a <;> rfl

/-- The body's product contracts the second axis of its left factor with the first of its right one and has no batch
    axes: it is the plain product of a 15000 x 16 by a 16 x 128 matrix. -/
theorem dims_plain : dot_S15000x16_S16x128_S15000x128_1_0_0_1_n_n = DotDims.plain 15000 16 128 := rfl

/-- What the body stores, read at row `p` and column `q` of a block: the inner product of row `p` of the features with
    column `q` of the weights, plus entry `q` of the bias row. The two changes of float format are the identity on
    extended reals, the two reshapes keep their shape, and a product accumulated into zero is the product. -/
theorem stored_apply (x : Vec Ideal S15000x16 .f32) (w : Vec Ideal S16x128 .f32) (b : Vec Ideal S1x128 .f32)
    (p : Fin 15000) (q : Fin 128) :
    k0_pay1 x w b (ix2 p q) = (∑ k : Fin 16, x (ix2 p k) * w (ix2 k q)) + b (ix2 (0 : Fin 1) q) := by
  unfold k0_pay1
  rw [shapeCast_self, shapeCast_self, matmul_zero_eq_dotGeneral, dims_plain]
  rw [addf_apply, StackMember.dotGeneral_plain_apply, broadcastTo_1b_ab_apply]
  rfl

/-- The same entry of the whole-array expression, at row `r` of all 600000. -/
theorem whole_apply (X : FVec Ideal S600000x16 .f32) (W : FVec Ideal S16x128 .f32) (B : FVec Ideal S1x128 .f32)
    (hrow : S1x128.BroadcastsInDim S600000x128 ![0, 1]) (r : Fin 600000) (q : Fin 128) :
    (addf (Host.dotGeneral (φ₁ := .f32) (φ₂ := .f32) (DotDims.plain 600000 16 128) none X W)
        (broadcastInDim S600000x128 ![0, 1] hrow B) : FVec Ideal S600000x128 .f32) (ix2 r q)
      = (∑ k : Fin 16, X (ix2 r k) * W (ix2 k q)) + B (ix2 (0 : Fin 1) q) := by
  rw [addf_apply, StackMember.dotGeneral_plain_apply, broadcastInDim_oneRow_apply]

/-! ## Where the blocks sit -/

/-- At grid point `t` the feature block and the output block are both block `t` down the rows and block 0 across; the
    weights and the bias are always their one whole block. Decided over the 40 points. -/
theorem block_indices : ∀ t : Fin cfg0.N,
    win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The whole output array the theorem names: `x · w` plus the bias row down every row. -/
abbrev wholeOut (c : Dev nD) (hrow : S1x128.BroadcastsInDim S600000x128 ![0, 1]) : FVec Ideal S600000x128 .f32 :=
  addf (Host.dotGeneral (φ₁ := .f32) (φ₂ := .f32) (DotDims.plain 600000 16 128) none (V c main_arg1 : FVec Ideal S600000x16 .f32) (V c main_v4 : FVec Ideal S16x128 .f32))
    (broadcastInDim S600000x128 ![0, 1] hrow (V c main_v5 : FVec Ideal S1x128 .f32))

/-- WHAT POINT `t` WRITES BACK is block `t` of the whole-array expression. Entry `(p, q)` of the block is entry
    `(t · 15000 + p, q)` of the array; the body's entry there is the inner product of row `p` of feature block `t`, which
    is row `t · 15000 + p` of the features, with column `q` of the weights, plus the bias: the same sum. -/
theorem written_eq_block (c : Dev nD) (hrow : S1x128.BroadcastsInDim S600000x128 ![0, 1]) (t : Fin cfg0.N) :
    (dat0 (F := Ideal) V c).flushed 3 t = ((cfg0.win 3).blk t).view.read (Elt Ideal) (wholeOut V c hrow) := by
  show (cfg0.win 3).cut (grid0.coords t) ((dat0 V c).after 3 t) = _
  rw [after0_3]
  unfold out0_3
  rw [View.canon_unit_zero zero_offset]
  simp only [View.ld_unit_zero (S := S15000x16) zero_offset, View.ld_unit_zero (S := S16x128) zero_offset,
    View.ld_unit_zero (S := S1x128) zero_offset]
  funext j
  obtain ⟨p, q, rfl⟩ : ∃ (p : Fin 15000) (q : Fin 128), j = ix2 p q := ⟨j 0, j 1, eq_ix2 j⟩
  obtain ⟨o0, o1, x0, x1, w0, w1, b0, b1⟩ := block_indices t
  have ht : t.val < 40 := lt_of_lt_of_eq t.isLt N_0
  have hp : p.val < 15000 := p.isLt
  have hr : t.val * 15000 + p.val < 600000 := by omega
  -- the output block's entry (p, q) is the array's entry (t · 15000 + p, q)
  have eo : ((cfg0.win 3).blk t).view.emb (ix2 p q) = ix2 (⟨t.val * 15000 + p.val, hr⟩ : Fin 600000) q := by
    refine Shape.idx_ext₂ ?_ ?_
    · show win0_3.index t (0 : Fin 2) * 15000 + 1 * p.val = t.val * 15000 + p.val; omega
    · show win0_3.index t (1 : Fin 2) * 128 + 1 * q.val = q.val; omega
  -- row p of feature block t is row t · 15000 + p of the features
  have hx : ∀ k : Fin 16, iblk0 V c 0 t (ix2 p k)
      = (V c main_arg1 : FVec Ideal S600000x16 .f32) (ix2 (⟨t.val * 15000 + p.val, hr⟩ : Fin 600000) k) := by
    intro k
    have ex : ((cfg0.win 0).blk t).view.emb (ix2 p k) = ix2 (⟨t.val * 15000 + p.val, hr⟩ : Fin 600000) k := by
      refine Shape.idx_ext₂ ?_ ?_
      · show win0_0.index t (0 : Fin 2) * 15000 + 1 * p.val = t.val * 15000 + p.val; omega
      · show win0_0.index t (1 : Fin 2) * 16 + 1 * k.val = k.val; omega
    unfold iblk0
    rw [View.read_apply, ex]
    rfl
  -- the weights' one block is the weights
  have hw : ∀ k : Fin 16, iblk0 V c 1 t (ix2 k q) = (V c main_v4 : FVec Ideal S16x128 .f32) (ix2 k q) := by
    intro k
    have ew : ((cfg0.win 1).blk t).view.emb (ix2 k q) = ix2 k q := by
      refine Shape.idx_ext₂ ?_ ?_
      · show win0_1.index t (0 : Fin 2) * 16 + 1 * k.val = k.val; omega
      · show win0_1.index t (1 : Fin 2) * 128 + 1 * q.val = q.val; omega
    unfold iblk0
    rw [View.read_apply, ew]
    rfl
  -- the bias' one block is the bias row
  have hb : iblk0 V c 2 t (ix2 (0 : Fin 1) q) = (V c main_v5 : FVec Ideal S1x128 .f32) (ix2 (0 : Fin 1) q) := by
    have eb : ((cfg0.win 2).blk t).view.emb (ix2 (0 : Fin 1) q) = ix2 (0 : Fin 1) q := by
      refine Shape.idx_ext₂ ?_ ?_
      · show win0_2.index t (0 : Fin 2) * 1 + 1 * 0 = 0; omega
      · show win0_2.index t (1 : Fin 2) * 128 + 1 * q.val = q.val; omega
    unfold iblk0
    rw [View.read_apply, eb]
    rfl
  refine (stored_apply _ _ _ p q).trans ?_
  rw [View.read_apply, eo]
  refine Eq.trans ?_ (whole_apply _ _ _ hrow ⟨t.val * 15000 + p.val, hr⟩ q).symm
  rw [hb]
  exact congrArg (· + _) (Finset.sum_congr rfl fun k _ => by rw [hx k, hw k])

/-! ## The blocks fill the array -/

/-- An entry of the output array is in point `t`'s block iff each coordinate is in the block's range on its axis. -/
theorem mem_block (t : Fin cfg0.N) (i : S600000x128.Idx) :
    i ∈ ((cfg0.win 3).blk t).view.set ↔ ∀ a : Fin 2, win0_3.index t a * S15000x128.size a ≤ (i a).val ∧ (i a).val < win0_3.index t a * S15000x128.size a + S15000x128.size a := by
  show i ∈ ((View.whole main_v6).slice (win0_3.rect t)).set ↔ _
  rw [View.set_slice_whole, Rect.mem_set_unit]
  exact Iff.rfl

/-- Row `r` lies in the block of point `r / 15000`, one of the 40 since `r < 600000`; every point writes its block back. -/
theorem every_entry_written (i : S600000x128.Idx) :
    ∃ t : Fin cfg0.N, (cfg0.win 3).flush t = true ∧ i ∈ ((cfg0.win 3).blk t).view.set := by
  have hi0 : (i 0).val < 600000 := (i 0).isLt
  have hi1 : (i 1).val < 128 := (i 1).isLt
  have hN : (i 0).val / 15000 < grid0.N := by rw [N_0]; omega
  obtain ⟨t, ht⟩ : ∃ t : Fin cfg0.N, t.val = (i 0).val / 15000 := ⟨⟨_, hN⟩, rfl⟩
  obtain ⟨o0, o1, -⟩ := block_indices t
  refine ⟨t, flush0_3 t, ?_⟩
  rw [mem_block]
  intro a
  match a with
  | ⟨0, _⟩ => show win0_3.index t (0 : Fin 2) * 15000 ≤ (i 0).val ∧ (i 0).val < win0_3.index t (0 : Fin 2) * 15000 + 15000; omega
  | ⟨1, _⟩ => show win0_3.index t (1 : Fin 2) * 128 ≤ (i 1).val ∧ (i 1).val < win0_3.index t (1 : Fin 2) * 128 + 128; omega

/-- After the launch the output array is `x · w + b` over all 600000 rows, whatever the region found in its three
    input arrays: `x` the 600000 x 16 array, `w` the 16 x 128 array, `b` the 1 x 128 array repeated down the rows. -/
theorem array_after (c : Dev nD) (hrow : S1x128.BroadcastsInDim S600000x128 ![0, 1]) :
    (dat0 (F := Ideal) V c).arrAt 3 cfg0.N
      = (addf (Host.dotGeneral (φ₁ := .f32) (φ₂ := .f32) (DotDims.plain 600000 16 128) none (V c main_arg1 : FVec Ideal S600000x16 .f32) (V c main_v4 : FVec Ideal S16x128 .f32))
          (broadcastInDim S600000x128 ![0, 1] hrow (V c main_v5 : FVec Ideal S1x128 .f32)) : FVec Ideal S600000x128 .f32) :=
  (dat0 V c).arrAt_eq_of_cover 3 (wholeOut V c hrow) (fun t _ => written_eq_block V c hrow t) every_entry_written

end Cert.KernelIdeal.EdgeLayer

end
-- ==== Proof.NodeLayer.lean ====
/-
  The second launch, read as one array.

  Each of its 10 grid points takes 5000 consecutive rows of two 50000 x 128 arrays, adds them entry by entry and
  multiplies the sum by the whole 128 x 128 weight matrix. A row of a matrix product depends on the same row of the left
  factor alone, so the 10 blocks of 5000 rows, written back side by side, are the rows of the product of the WHOLE sum
  with the weights.
-/
import proofs.«162904_j53257594471012_1_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.KernelIdeal.NodeLayer

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered: any
variable (V : (c : Dev nD) → (b : Ref sig .tc) → Buf (Elt Ideal) ((c : Thread nD τ).loc b))

/-! ## One entry of a block's product -/

/-- The offsets of a load or store of a whole block are all zero. -/
theorem zero_offsets : (![0, 0] : Fin 2 → Nat) = fun _ => 0 := funext fun a => by fin_cases a <;> rfl

/-- The body's product contracts the left factor's columns against the right factor's rows: the plain one. -/
theorem dot_plain : dot_S5000x128_S128x128_S5000x128_1_0_0_1_n_n = DotDims.plain 5000 128 128 := rfl

/-- Entry (p, q) of what the body computes from a 5000 x 128 block `x`, a 5000 x 128 block `a` and the weights `w`: the
    sum over k of (x + a)(p, k) · w(k, q). The changes of float format are the identity on extended reals, and the
    accumulator the product starts from is zero. -/
theorem pay_apply (x a : Vec Ideal S5000x128 .f32) (w : Vec Ideal S128x128 .f32) (p : Fin 5000) (q : Fin 128) :
    k1_pay1 (F := Ideal) x a w (ix2 p q) = ∑ k : Fin 128, (x (ix2 p k) + a (ix2 p k)) * w (ix2 k q) := by
  unfold k1_pay1
  refine (congrFun (matmul_zero_eq_dotGeneral _ none _ _) (ix2 p q)).trans ?_
  rw [dot_plain, StackMember.dotGeneral_plain_apply]
  refine Finset.sum_congr rfl fun k _ => ?_
  rw [truncf_apply, truncf_apply, addf_apply, shapeCast_self, shapeCast_self]

/-! ## Where a block sits in its array -/

/-- The block indices at grid point `t`: the two summands' and the output's blocks are the `t`-th down the rows, in the
    only block column; the weights' block is the whole matrix. -/
theorem block_indices : ∀ t : Fin cfg1.N,
    win1_3.index t (0 : Fin 2) = t.val ∧ win1_3.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- The grid has 10 points. -/
theorem point_lt (t : Fin cfg1.N) : t.val < 10 := Nat.lt_of_lt_of_eq t.isLt N_1

/-- Row `p` of the block at point `t` is row `t · 5000 + p` of the array. -/
def row (t : Fin cfg1.N) (p : Fin 5000) : Fin 50000 := ⟨t.val * 5000 + p.val, by have := point_lt t; omega⟩

/-- Entry (p, q) of the output's block at `t` is entry (t · 5000 + p, q) of the output array. -/
theorem out_emb (t : Fin cfg1.N) (p : Fin 5000) (q : Fin 128) :
    ((cfg1.win 3).blk t).view.emb (ix2 p q) = ix2 (row t p) q := by
  obtain ⟨e0, e1, -⟩ := block_indices t
  funext a; apply Fin.ext
  match a with
  | ⟨0, _⟩ => show win1_3.index t (0 : Fin 2) * 5000 + 1 * p.val = t.val * 5000 + p.val; omega
  | ⟨1, _⟩ => show win1_3.index t (1 : Fin 2) * 128 + 1 * q.val = q.val; omega

/-- The same for the first summand's block … -/
theorem x_emb (t : Fin cfg1.N) (p : Fin 5000) (k : Fin 128) :
    ((cfg1.win 0).blk t).view.emb (ix2 p k) = ix2 (row t p) k := by
  obtain ⟨-, -, e0, e1, -⟩ := block_indices t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- … and for the second summand's. -/
theorem a_emb (t : Fin cfg1.N) (p : Fin 5000) (k : Fin 128) :
    ((cfg1.win 1).blk t).view.emb (ix2 p k) = ix2 (row t p) k := by
  obtain ⟨-, -, -, -, e0, e1, -⟩ := block_indices t
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- The weights' block is the whole matrix at every point: an entry keeps its place. -/
theorem w_emb (t : Fin cfg1.N) (k q : Fin 128) :
    ((cfg1.win 2).blk t).view.emb (ix2 k q) = ix2 k q := by
  obtain ⟨-, -, -, -, -, -, e0, e1⟩ := block_indices t
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- So entry (p, k) of the first summand's block at `t` is entry (t · 5000 + p, k) of its array, -/
theorem x_block_apply (c : Dev nD) (t : Fin cfg1.N) (p : Fin 5000) (k : Fin 128) :
    iblk1 (F := Ideal) V c 0 t (ix2 p k) = (V c main_arg0 : FVec Ideal S50000x128 .f32) (ix2 (row t p) k) := by
  unfold iblk1
  rw [View.read_apply, x_emb]
  rfl

/-- likewise for the second summand, -/
theorem a_block_apply (c : Dev nD) (t : Fin cfg1.N) (p : Fin 5000) (k : Fin 128) :
    iblk1 (F := Ideal) V c 1 t (ix2 p k) = (V c main_v9 : FVec Ideal S50000x128 .f32) (ix2 (row t p) k) := by
  unfold iblk1
  rw [View.read_apply, a_emb]
  rfl

/-- and entry (k, q) of the weights' block is entry (k, q) of the weights. -/
theorem w_block_apply (c : Dev nD) (t : Fin cfg1.N) (k q : Fin 128) :
    iblk1 (F := Ideal) V c 2 t (ix2 k q) = (V c main_v10 : FVec Ideal S128x128 .f32) (ix2 k q) := by
  unfold iblk1
  rw [View.read_apply, w_emb]
  rfl

/-! ## The product of the whole arrays, block by block -/

/-- `(x + a) · w` over all 50000 rows. -/
abbrev product (c : Dev nD) : FVec Ideal S50000x128 .f32 :=
  Host.dotGeneral (φ₁ := .f32) (φ₂ := .f32) (DotDims.plain 50000 128 128) none
    (addf (φ := .f32) (V c main_arg0 : FVec Ideal S50000x128 .f32) (V c main_v9 : FVec Ideal S50000x128 .f32))
    (V c main_v10 : FVec Ideal S128x128 .f32)

/-- What point `t` writes back is the `t`-th block of 5000 rows of the whole product: entry (p, q) of the block's
    product sums (x + a)(t · 5000 + p, k) · w(k, q) over k, which is entry (t · 5000 + p, q) of the whole product. -/
theorem written_block (c : Dev nD) (t : Fin cfg1.N) :
    (dat1 (F := Ideal) V c).flushed 3 t = ((cfg1.win 3).blk t).view.read (Elt Ideal) (product V c) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S128x128) zero_offsets]
  funext j
  obtain ⟨p, q, rfl⟩ : ∃ (p : Fin 5000) (q : Fin 128), j = ix2 p q := ⟨j 0, j 1, eq_ix2 j⟩
  rw [View.read_apply, out_emb]
  refine (pay_apply _ _ _ p q).trans ?_
  refine Eq.trans ?_ (StackMember.dotGeneral_plain_apply none _ _ (row t p) q).symm
  refine Finset.sum_congr rfl fun k _ => ?_
  rw [x_block_apply, a_block_apply, w_block_apply, addf_apply]

/-! ## The blocks fill the array -/

/-- An entry of the array is in point `t`'s block iff each of its coordinates is in the block's range on that axis. -/
theorem mem_block (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v11).slice (win1_3.rect t)).set ↔ _
  rw [View.set_slice_whole, Rect.mem_set_unit]
  exact Iff.rfl

/-- Row `r` lies in the block of point `r / 5000`, which is written back: every entry of the array is some point's. -/
theorem blocks_cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show _ < grid1.N; rw [N_1]; omega⟩, rfl⟩
  obtain ⟨e0, e1, -⟩ := block_indices t
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- After the launch the output array is `(x + a) · w` over all 50000 rows, whatever the region found in its three
    input arrays. -/
theorem array_after (c : Dev nD) :
    (dat1 (F := Ideal) V c).arrAt 3 cfg1.N
      = (Host.dotGeneral (φ₁ := .f32) (φ₂ := .f32) (DotDims.plain 50000 128 128) none
          (addf (φ := .f32) (V c main_arg0 : FVec Ideal S50000x128 .f32) (V c main_v9 : FVec Ideal S50000x128 .f32))
          (V c main_v10 : FVec Ideal S128x128 .f32) : FVec Ideal S50000x128 .f32) :=
  (dat1 V c).arrAt_eq_of_cover 3 (product V c) (fun t _ => written_block V c t) blocks_cover

end Cert.KernelIdeal.NodeLayer

end
-- ==== Proof.Combine.lean ====
/-
  The third launch, read as one array.

  Each of its 10 grid points takes 5000 consecutive rows of two 50000 x 128 arrays, adds them entry by entry, adds the
  one-row bias to every row and takes the larger of that and zero. Every operation is entry by entry, so the 10 blocks
  written back side by side are the same operations of the whole arrays.
-/
import proofs.«162904_j53257594471012_1_alg».proof.Proof.Gen.KernelIdeal.Frame
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

set_option maxRecDepth 16384

noncomputable section

namespace Cert.KernelIdeal.Combine

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered: any
variable (V : (c : Dev nD) → (b : Ref sig .tc) → Buf (Elt Ideal) ((c : Thread nD τ).loc b))

/-- The zero offsets of a whole-buffer access, however they are spelt. -/
theorem hz : (![0, 0] : Fin 2 → Nat) = fun _ => 0 := funext fun a => by fin_cases a <;> rfl

/-! ## The arithmetic, entry by entry -/

/-- The body's arithmetic at row p, column q of a block: the two blocks' entries there added, the bias's entry of
    column q added, and the larger of that and zero. -/
theorem pay_apply (x0 x1 : Vec Ideal S5000x128 .f32) (x2 : Vec Ideal S1x128 .f32) (p : Fin 5000) (q : Fin 128) :
    k2_pay1 x0 x1 x2 (ix2 p q)
      = max ((x0 (ix2 p q) + x1 (ix2 p q)) + x2 (ix2 (0 : Fin 1) q)) (Ideal.ofBits .f32 0x00000000#32) := by
  unfold k2_pay1
  rw [maximumf_apply, addf_apply, addf_apply, shapeCast_self, shapeCast_self, shapeCast_self,
    broadcastTo_1b_ab_apply, broadcast_apply]
  rfl

/-- The same arithmetic of whole arrays, as one function of them. -/
abbrev whole (hrow : S1x128.BroadcastsInDim S50000x128 ![0, 1]) (s l : FVec Ideal S50000x128 .f32)
    (b : FVec Ideal S1x128 .f32) : FVec Ideal S50000x128 .f32 :=
  maximumf (addf (addf s l) (broadcastInDim S50000x128 ![0, 1] hrow b))
    (broadcastInDim S50000x128 ![] bcast_S_S50000x128 (constant (F := Ideal) S_ .f32 0x00000000#32))

/-- At row r, column q it reads the two arrays' entries there and the bias's entry of column q. -/
theorem whole_apply (hrow : S1x128.BroadcastsInDim S50000x128 ![0, 1]) (s l : FVec Ideal S50000x128 .f32)
    (b : FVec Ideal S1x128 .f32) (r : Fin 50000) (q : Fin 128) :
    whole hrow s l b (ix2 r q)
      = max ((s (ix2 r q) + l (ix2 r q)) + b (ix2 (0 : Fin 1) q)) (Ideal.ofBits .f32 0x00000000#32) := by
  unfold whole
  rw [maximumf_apply, addf_apply, addf_apply, broadcastInDim_oneRow_apply, broadcastInDim_constant, broadcast_apply]
  rfl

/-! ## Where the blocks sit -/

/-- The index maps over the grid: the three row-blocked windows sit at block (t, 0), the bias at block (0, 0). -/
theorem idx_facts : ∀ t : Fin cfg2.N,
    win2_3.index t (0 : Fin 2) = t.val ∧ win2_3.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- The grid has ten points. -/
theorem point_lt (t : Fin cfg2.N) : t.val < 10 := t.isLt.trans_eq N_2

/-- Block t of the first array, at (p, q), is the array at row 5000 t + p, column q. -/
theorem in0_apply (c : Dev nD) (t : Fin cfg2.N) (p : Fin 5000) (q : Fin 128) (r : Fin 50000)
    (hr : r.val = t.val * 5000 + p.val) :
    iblk2 V c 0 t (ix2 p q : S5000x128.Idx) = (V c main_v49 : FVec Ideal S50000x128 .f32) (ix2 r q) := by
  obtain ⟨-, -, e0, e1, -⟩ := idx_facts t
  show (V c main_v49 : FVec Ideal S50000x128 .f32) (((cfg2.win 0).blk t).view.emb (ix2 p q : S5000x128.Idx)) = _
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * q.val = q.val; omega

/-- Block t of the second array, likewise. -/
theorem in1_apply (c : Dev nD) (t : Fin cfg2.N) (p : Fin 5000) (q : Fin 128) (r : Fin 50000)
    (hr : r.val = t.val * 5000 + p.val) :
    iblk2 V c 1 t (ix2 p q : S5000x128.Idx) = (V c main_v53 : FVec Ideal S50000x128 .f32) (ix2 r q) := by
  obtain ⟨-, -, -, -, e0, e1, -⟩ := idx_facts t
  show (V c main_v53 : FVec Ideal S50000x128 .f32) (((cfg2.win 1).blk t).view.emb (ix2 p q : S5000x128.Idx)) = _
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * q.val = q.val; omega

/-- The bias's block is the whole one-row array at every point. -/
theorem in2_apply (c : Dev nD) (t : Fin cfg2.N) (q : Fin 128) :
    iblk2 V c 2 t (ix2 (0 : Fin 1) q : S1x128.Idx) = (V c main_v54 : FVec Ideal S1x128 .f32) (ix2 (0 : Fin 1) q) := by
  obtain ⟨-, -, -, -, -, -, e0, e1⟩ := idx_facts t
  show (V c main_v54 : FVec Ideal S1x128 .f32) (((cfg2.win 2).blk t).view.emb (ix2 (0 : Fin 1) q : S1x128.Idx)) = _
  refine congrArg _ (funext fun a => Fin.ext ?_)
  match a with
  | ⟨0, _⟩ => show win2_2.index t (0 : Fin 2) * 1 + 1 * (0 : Fin 1).val = (0 : Fin 1).val; omega
  | ⟨1, _⟩ => show win2_2.index t (1 : Fin 2) * 128 + 1 * q.val = q.val; omega

/-- Where the output's block at point t puts its (p, q): row 5000 t + p, column q. -/
theorem out_emb (t : Fin cfg2.N) (p : Fin 5000) (q : Fin 128) (r : Fin 50000)
    (hr : r.val = t.val * 5000 + p.val) :
    ((cfg2.win 3).blk t).view.emb (ix2 p q : S5000x128.Idx) = (ix2 r q : S50000x128.Idx) := by
  obtain ⟨e0, e1, -⟩ := idx_facts t
  funext a
  apply Fin.ext
  match a with
  | ⟨0, _⟩ => show win2_3.index t (0 : Fin 2) * 5000 + 1 * p.val = r.val; omega
  | ⟨1, _⟩ => show win2_3.index t (1 : Fin 2) * 128 + 1 * q.val = q.val; omega

/-! ## One point's write-back -/

/-- What point t writes back is block t of the closed function of the three arrays: the body's one store leaves
    its payload in the buffer, the payload at (p, q) reads the three input blocks, each of which is its array at the
    row the output's block puts (p, q) in. -/
theorem block_eq (c : Dev nD) (hrow : S1x128.BroadcastsInDim S50000x128 ![0, 1]) (t : Fin cfg2.N) :
    (dat2 (F := Ideal) V c).flushed 3 t
      = ((cfg2.win 3).blk t).view.read (Elt Ideal)
          (whole hrow (V c main_v49) (V c main_v53) (V c main_v54)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q) = _
  refine (pay_apply _ _ _ p q).trans ?_
  have ht := point_lt t
  obtain ⟨r, hr⟩ : ∃ r : Fin 50000, r.val = t.val * 5000 + p.val := ⟨⟨t.val * 5000 + p.val, by omega⟩, rfl⟩
  show _ = whole hrow (V c main_v49) (V c main_v53) (V c main_v54) (((cfg2.win 3).blk t).view.emb (ix2 p q : S5000x128.Idx))
  rw [out_emb t p q r hr, whole_apply, in0_apply V c t p q r hr, in1_apply V c t p q r hr, in2_apply V c t q]

/-! ## The ten blocks fill the array -/

/-- An index of the array is in point t's block iff each coordinate is in the block's range on its axis. -/
theorem mem_blk (t : Fin cfg2.N) (i : S50000x128.Idx) :
    i ∈ ((cfg2.win 3).blk t).view.set
      ↔ ∀ a : Fin 2, win2_3.index t a * S5000x128.size a ≤ (i a).val
          ∧ (i a).val < win2_3.index t a * S5000x128.size a + S5000x128.size a := by
  show i ∈ ((View.whole main_v55).slice (win2_3.rect t)).set ↔ _
  rw [View.set_slice_whole, Rect.mem_set_unit]
  exact Iff.rfl

/-- Row r of the array lies in the block of point r / 5000, and every point writes its block back. -/
theorem cover (i : S50000x128.Idx) :
    ∃ t : Fin cfg2.N, (cfg2.win 3).flush t = true ∧ i ∈ ((cfg2.win 3).blk t).view.set := by
  have h0 : (i 0).val < 50000 := (i 0).isLt
  have h1 : (i 1).val < 128 := (i 1).isLt
  obtain ⟨t, ht⟩ : ∃ t : Fin cfg2.N, t.val = (i 0).val / 5000 :=
    ⟨⟨(i 0).val / 5000, lt_of_lt_of_eq (by omega) N_2.symm⟩, rfl⟩
  obtain ⟨e0, e1, -⟩ := idx_facts t
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-! ## The array after the launch -/

/-- After the launch the output array is `max ((s + l) + b, 0)` entry by entry over all 50000 rows, whatever the
    region found in its three input arrays: `b` the 1 x 128 array repeated down the rows. -/
theorem array_after (c : Dev nD) (hrow : S1x128.BroadcastsInDim S50000x128 ![0, 1]) :
    (dat2 (F := Ideal) V c).arrAt 3 cfg2.N
      = (maximumf
          (addf (addf (V c main_v49 : FVec Ideal S50000x128 .f32) (V c main_v53 : FVec Ideal S50000x128 .f32))
            (broadcastInDim S50000x128 ![0, 1] hrow (V c main_v54 : FVec Ideal S1x128 .f32)))
          (broadcastInDim S50000x128 ![] bcast_S_S50000x128 (constant (F := Ideal) S_ .f32 0x00000000#32)) : FVec Ideal S50000x128 .f32) :=
  (dat2 (F := Ideal) V c).arrAt_eq_of_cover 3 (whole hrow (V c main_v49) (V c main_v53) (V c main_v54))
    (fun t _ => block_eq V c hrow t) cover

end Cert.KernelIdeal.Combine

end
-- ==== Proof.Chain.lean ====
/-
  The graph convolution after the two dense layers, as functions of whole arrays.

  Both programs apply the same host operations to the edge-index array and to the node features `xw` that the second
  dense layer produced: the column of source nodes and the column of destination nodes are the two rows of the
  edge-index array; a node's degree is one plus the number of edges that end in it; its weight is the reciprocal square
  root of the degree where the degree is positive, else zero; an edge's coefficient is the product of its two end
  nodes' weights; the message sum adds, into each destination node, the coefficient times the source node's features;
  the self term is a node's squared weight times its own features. They are named here once, for any float family, and
  never opened: the two programs differ only in how the arrays that go INTO these functions were computed.
-/
import proofs.«162904_j53257594471012_1_alg».proof.ReferenceIdeal
import proofs.«162904_j53257594471012_1_alg».proof.Proof.Gen.ReferenceIdeal

noncomputable section

namespace Cert.ReferenceIdeal.Chain

open Cert.ReferenceIdeal Idealize.ShloMosaic

variable {F : FTy → Type} [FloatOps F] [Facts]
open Facts₀ Facts

/-- Row 0 of the edge-index array: each edge's source node. -/
def sources (ei : (⟨S2x600000, .i32⟩ : BufTy).Contents (Elt F)) : (⟨S600000, .i32⟩ : BufTy).Contents (Elt F) :=
  shapeCast _ (extractStridedSlice S1x600000 ![0, 0] ei slices_S2x600000_S1x600000_0_0) shapeCasts_S1x600000_S600000

/-- Row 1 of the edge-index array: each edge's destination node. -/
def targets (ei : (⟨S2x600000, .i32⟩ : BufTy).Contents (Elt F)) : (⟨S600000, .i32⟩ : BufTy).Contents (Elt F) :=
  shapeCast _ (extractStridedSlice S1x600000 ![1, 0] ei slices_S2x600000_S1x600000_1_0) shapeCasts_S1x600000_S600000

/-- A node index counted from the end when negative: `v + 50000` where `v < 0`, else `v`. -/
def fromEnd (v : (⟨S600000, .i32⟩ : BufTy).Contents (Elt F)) : (⟨S600000, .i32⟩ : BufTy).Contents (Elt F) :=
  select (cmpi .slt v (broadcastInDim S600000 ![] bcast_S_S600000 (constantI S_ 32 0#32)))
    (addi v (broadcastInDim S600000 ![] bcast_S_S600000 (constantI S_ 32 50000#32))) v

/-- One plus the number of edges that end in each node. -/
def degree (tgt : (⟨S600000, .i32⟩ : BufTy).Contents (Elt F)) : (⟨S50000, .f32⟩ : BufTy).Contents (Elt F) :=
  addf (Host.scatterAdd scatter_S50000_S600000x1_S600000_n_0_0_1 (broadcastInDim S50000 ![] bcast_S_S50000 (constant S_ .f32 0x00000000#32))
      (broadcastInDim S600000x1 ![0] bcast_S600000_S600000x1_0 tgt)
      (broadcastInDim S600000 ![] bcast_S_S600000 (constant S_ .f32 0x3F800000#32)))
    (broadcastInDim S50000 ![] bcast_S_S50000 (constant S_ .f32 0x3F800000#32))

/-- Each node's weight: the reciprocal square root of its degree where that is positive, else zero. -/
def weight (tgt : (⟨S600000, .i32⟩ : BufTy).Contents (Elt F)) : (⟨S50000, .f32⟩ : BufTy).Contents (Elt F) :=
  select (cmpf (F := F) .ogt (degree tgt) (broadcastInDim S50000 ![] bcast_S_S50000 (constant S_ .f32 0x00000000#32)))
    (Host.rsqrt (degree tgt)) (broadcastInDim S50000 ![] bcast_S_S50000 (id (constant S_ .f32 0x00000000#32)))

/-- Each edge's coefficient: the product of its source's and its destination's weights. -/
def coefficient (src tgt : (⟨S600000, .i32⟩ : BufTy).Contents (Elt F)) : (⟨S600000, .f32⟩ : BufTy).Contents (Elt F) :=
  mulf (Host.gather gather_S50000_S600000x1_S600000_n_0_n_n_0_1_1 (weight tgt) (broadcastInDim S600000x1 ![0] bcast_S600000_S600000x1_0 (fromEnd src)))
    (Host.gather gather_S50000_S600000x1_S600000_n_0_n_n_0_1_1 (weight tgt) (broadcastInDim S600000x1 ![0] bcast_S600000_S600000x1_0 (fromEnd tgt)))

/-- The sum, into each node, of the rows of `u` (one per edge) whose edge ends in it. -/
def intoTargets (tgt : (⟨S600000, .i32⟩ : BufTy).Contents (Elt F)) (u : (⟨S600000x128, .f32⟩ : BufTy).Contents (Elt F)) :
    (⟨S50000x128, .f32⟩ : BufTy).Contents (Elt F) :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 tgt) u

/-- The message sum: into each destination node, the edge's coefficient times the source node's features. -/
def messages (src tgt : (⟨S600000, .i32⟩ : BufTy).Contents (Elt F)) (xw : (⟨S50000x128, .f32⟩ : BufTy).Contents (Elt F)) :
    (⟨S50000x128, .f32⟩ : BufTy).Contents (Elt F) :=
  intoTargets tgt
    (mulf (broadcastInDim S600000x128 ![0, 1] bcast_S600000x1_S600000x128_0_1 (broadcastInDim S600000x1 ![0] bcast_S600000_S600000x1_0 (coefficient src tgt)))
      (Host.gather gather_S50000x128_S600000x1_S600000x128_1_0_n_n_0_1_1128 xw (broadcastInDim S600000x1 ![0] bcast_S600000_S600000x1_0 (fromEnd src))))

/-- The self term: each node's squared weight times its own features. -/
def selfTerm (tgt : (⟨S600000, .i32⟩ : BufTy).Contents (Elt F)) (xw : (⟨S50000x128, .f32⟩ : BufTy).Contents (Elt F)) :
    (⟨S50000x128, .f32⟩ : BufTy).Contents (Elt F) :=
  mulf (broadcastInDim S50000x128 ![0, 1] bcast_S50000x1_S50000x128_0_1 (broadcastInDim S50000x1 ![0] bcast_S50000_S50000x1_0 (mulf (weight tgt) (weight tgt)))) xw

/-- A vector of 128 entries laid along every one of `n` rows, the way the host spells it. -/
def alongRows50000 (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- The edge layer: the edge features times the transposed edge weights, plus the edge bias along every row. -/
def edgeLayer (ea : (⟨S600000x16, .f32⟩ : BufTy).Contents (Elt F)) (we : (⟨S128x16, .f32⟩ : BufTy).Contents (Elt F))
    (be : (⟨S128, .f32⟩ : BufTy).Contents (Elt F)) : (⟨S600000x128, .f32⟩ : BufTy).Contents (Elt F) :=
  addf (Host.dotGeneral dot_S600000x16_S16x128_S600000x128_1_0_0_1_n_n none ea (transpose S16x128 [1, 0] we transposes_S128x16_S16x128_1_0))
    (broadcastInDim S600000x128 ![0, 1] bcast_S1x128_S600000x128_0_1 (broadcastInDim S1x128 ![1] bcast_S128_S1x128_1 be))

/-- The node layer: the node features plus what the edges brought, times the transposed node weights. -/
def nodeLayer (x agg : (⟨S50000x128, .f32⟩ : BufTy).Contents (Elt F)) (wc : (⟨S128x128, .f32⟩ : BufTy).Contents (Elt F)) :
    (⟨S50000x128, .f32⟩ : BufTy).Contents (Elt F) :=
  Host.dotGeneral dot_S50000x128_S128x128_S50000x128_1_0_0_1_n_n none (addf x agg) (transpose S128x128 [1, 0] wc transposes_S128x128_S128x128_1_0)

/-- The last step: message sum plus self term plus the bias along every row, and the larger of that and zero. -/
def combine (s l : (⟨S50000x128, .f32⟩ : BufTy).Contents (Elt F)) (bc : (⟨S128, .f32⟩ : BufTy).Contents (Elt F)) :
    (⟨S50000x128, .f32⟩ : BufTy).Contents (Elt F) :=
  maximumf (addf (addf s l) (alongRows50000 bc)) (broadcastInDim S50000x128 ![] bcast_S_S50000x128 (constant S_ .f32 0x00000000#32))

/-- The whole network, from the seven argument arrays. -/
def network (x : (⟨S50000x128, .f32⟩ : BufTy).Contents (Elt F)) (ea : (⟨S600000x16, .f32⟩ : BufTy).Contents (Elt F))
    (we : (⟨S128x16, .f32⟩ : BufTy).Contents (Elt F)) (be : (⟨S128, .f32⟩ : BufTy).Contents (Elt F))
    (wc : (⟨S128x128, .f32⟩ : BufTy).Contents (Elt F)) (bc : (⟨S128, .f32⟩ : BufTy).Contents (Elt F))
    (ei : (⟨S2x600000, .i32⟩ : BufTy).Contents (Elt F)) : (⟨S50000x128, .f32⟩ : BufTy).Contents (Elt F) :=
  combine (messages (sources ei) (targets ei) (nodeLayer x (intoTargets (targets ei) (edgeLayer ea we be)) wc))
    (selfTerm (targets ei) (nodeLayer x (intoTargets (targets ei) (edgeLayer ea we be)) wc)) bc

end Cert.ReferenceIdeal.Chain

end
-- ==== Proof.HostStretch.lean ====
/-
  What the kernel program's host operations leave in the arrays each launch reads.

  Between its three launches the program runs plain host operations: slices and reshapes of the edge-index array, two
  transposes, reshapes of the two bias vectors, and the graph convolution's gathers and scatter-sums. Each array a launch
  reads is traced back here through those operations to the argument arrays and to the output array of the launch
  before it. The convolution's operations are the reference's own, applied in the same order, so what they leave is
  stated with the very functions that name the reference's steps.
-/
import proofs.«162904_j53257594471012_1_alg».proof.Proof.Gen.KernelIdeal.Frame
import proofs.«162904_j53257594471012_1_alg».proof.Proof.Chain
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.ReferenceIdeal (Chain.sources Chain.targets Chain.intoTargets Chain.messages Chain.selfTerm)

variable {F : FTy → Type} [FloatOps F]
variable (m : (ℓ : Loc nD τ sig) → Buf (Elt F) ℓ) (ρ : Dev nD → PrngReg)

/-! ## Before the first launch -/

/-- The edge features reach the first launch as given. -/
theorem first_features (c : Dev nD) : V1 m ρ c main_arg1 = m ((c : Thread nD τ).loc main_arg1) := by
  show StableHlo.after hostOps0 (W0 m ρ c) (Proc.devRef .tc main_arg1) = _
  after_results

/-- The edge weights reach it transposed. -/
theorem first_weights (c : Dev nD) :
    V1 m ρ c main_v4 = transpose S16x128 [1, 0] (m ((c : Thread nD τ).loc main_arg2)) transposes_S128x16_S16x128_1_0 := by
  show StableHlo.after hostOps0 (W0 m ρ c) (Proc.devRef .tc main_v4) = _
  after_results

/-- The edge bias reaches it as a one-row matrix. -/
theorem first_bias (c : Dev nD) :
    V1 m ρ c main_v5 = shapeCast _ (m ((c : Thread nD τ).loc main_arg3)) shapeCasts_S128_S1x128 := by
  show StableHlo.after hostOps0 (W0 m ρ c) (Proc.devRef .tc main_v5) = _
  after_results
  rfl

/-- The destination column of the edge-index array, as the first stretch leaves it. -/
theorem targets_first (c : Dev nD) :
    W1 m ρ c (Proc.devRef .tc main_v3) = Chain.targets (m ((c : Thread nD τ).loc main_arg6)) := by
  show StableHlo.after hostOps0 (W0 m ρ c) (Proc.devRef .tc main_v3) = _
  after_results
  rfl

/-- The source column of the edge-index array, as the first stretch leaves it. -/
theorem sources_first (c : Dev nD) :
    W1 m ρ c (Proc.devRef .tc main_v1) = Chain.sources (m ((c : Thread nD τ).loc main_arg6)) := by
  show StableHlo.after hostOps0 (W0 m ρ c) (Proc.devRef .tc main_v1) = _
  after_results
  rfl

/-! ## Between the first and the second launch -/

/-- The first launch writes only its output array: the destination column is still what the first stretch left. -/
theorem targets_second (c : Dev nD) :
    W2 m ρ c (Proc.devRef .tc main_v3) = Chain.targets (m ((c : Thread nD τ).loc main_arg6)) :=
  (W2_of_ne m ρ c main_v3 (by decide)).trans (targets_first m ρ c)

theorem sources_second (c : Dev nD) :
    W2 m ρ c (Proc.devRef .tc main_v1) = Chain.sources (m ((c : Thread nD τ).loc main_arg6)) :=
  (W2_of_ne m ρ c main_v1 (by decide)).trans (sources_first m ρ c)

/-- The node features reach the second launch as given. -/
theorem second_features (c : Dev nD) : V3 m ρ c main_arg0 = m ((c : Thread nD τ).loc main_arg0) := by
  show StableHlo.after hostOps1 (W2 m ρ c) (Proc.devRef .tc main_arg0) = _
  after_results
  refine (W2_of_ne m ρ c main_arg0 (by decide)).trans ?_
  show StableHlo.after hostOps0 (W0 m ρ c) (Proc.devRef .tc main_arg0) = _
  after_results

/-- What the edges bring to each node: the first launch's output array summed into the destination nodes. -/
theorem second_aggregate (c : Dev nD) :
    V3 m ρ c main_v9
      = Chain.intoTargets (Chain.targets (m ((c : Thread nD τ).loc main_arg6))) (W2 m ρ c (Proc.devRef .tc main_v6)) := by
  show StableHlo.after hostOps1 (W2 m ρ c) (Proc.devRef .tc main_v9) = _
  after_results
  rw [targets_second m ρ c]
  rfl

/-- The node weights reach it transposed. -/
theorem second_weights (c : Dev nD) :
    V3 m ρ c main_v10 = transpose S128x128 [1, 0] (m ((c : Thread nD τ).loc main_arg4)) transposes_S128x128_S128x128_1_0 := by
  show StableHlo.after hostOps1 (W2 m ρ c) (Proc.devRef .tc main_v10) = _
  after_results
  rw [show W2 m ρ c (Proc.devRef .tc main_arg4) = m ((c : Thread nD τ).loc main_arg4) from by
    refine (W2_of_ne m ρ c main_arg4 (by decide)).trans ?_
    show StableHlo.after hostOps0 (W0 m ρ c) (Proc.devRef .tc main_arg4) = _
    after_results]

/-! ## Between the second and the third launch -/

/-- The second launch writes only its output array: the two index columns are still what the first stretch left. -/
theorem targets_third (c : Dev nD) :
    W4 m ρ c (Proc.devRef .tc main_v3) = Chain.targets (m ((c : Thread nD τ).loc main_arg6)) := by
  refine (W4_of_ne m ρ c main_v3 (by decide)).trans ?_
  show StableHlo.after hostOps1 (W2 m ρ c) (Proc.devRef .tc main_v3) = _
  after_results
  exact targets_second m ρ c

theorem sources_third (c : Dev nD) :
    W4 m ρ c (Proc.devRef .tc main_v1) = Chain.sources (m ((c : Thread nD τ).loc main_arg6)) := by
  refine (W4_of_ne m ρ c main_v1 (by decide)).trans ?_
  show StableHlo.after hostOps1 (W2 m ρ c) (Proc.devRef .tc main_v1) = _
  after_results
  exact sources_second m ρ c

/-- The message sum the third launch reads: the convolution's message sum of the second launch's output array. -/
theorem third_messages (c : Dev nD) :
    V7 m ρ c main_v49
      = Chain.messages (Chain.sources (m ((c : Thread nD τ).loc main_arg6))) (Chain.targets (m ((c : Thread nD τ).loc main_arg6)))
          (W4 m ρ c (Proc.devRef .tc main_v11)) := by
  show StableHlo.after hostOps2_2 (StableHlo.after hostOps2_1 (StableHlo.after hostOps2 (W4 m ρ c))) (Proc.devRef .tc main_v49) = _
  after_results_simp
  rw [targets_third m ρ c, sources_third m ρ c]
  rfl

/-- The self term the third launch reads: the convolution's self term of the second launch's output array. -/
theorem third_self (c : Dev nD) :
    V7 m ρ c main_v53
      = Chain.selfTerm (Chain.targets (m ((c : Thread nD τ).loc main_arg6))) (W4 m ρ c (Proc.devRef .tc main_v11)) := by
  show StableHlo.after hostOps2_2 (StableHlo.after hostOps2_1 (StableHlo.after hostOps2 (W4 m ρ c))) (Proc.devRef .tc main_v53) = _
  after_results_simp
  rw [targets_third m ρ c]
  rfl

/-- The output bias reaches the third launch as a one-row matrix. -/
theorem third_bias (c : Dev nD) :
    V7 m ρ c main_v54 = shapeCast _ (m ((c : Thread nD τ).loc main_arg5)) shapeCasts_S128_S1x128 := by
  show StableHlo.after hostOps2_2 (StableHlo.after hostOps2_1 (StableHlo.after hostOps2 (W4 m ρ c))) (Proc.devRef .tc main_v54) = _
  after_results_simp
  rw [show W4 m ρ c (Proc.devRef .tc main_arg5) = m ((c : Thread nD τ).loc main_arg5) from by
    refine (W4_of_ne m ρ c main_arg5 (by decide)).trans ?_
    show StableHlo.after hostOps1 (W2 m ρ c) (Proc.devRef .tc main_arg5) = _
    after_results
    refine (W2_of_ne m ρ c main_arg5 (by decide)).trans ?_
    show StableHlo.after hostOps0 (W0 m ρ c) (Proc.devRef .tc main_arg5) = _
    after_results]
  rfl

end Cert.KernelIdeal.Stretch

end
-- ==== Proof.LibOneRow.lean ====
/-
  A vector as a one-row matrix, two spellings.

  A vector of `n` entries becomes a 1 x n matrix either by a reshape (the entries keep their row-major order) or by
  laying it along axis 1 of a 1 x n matrix. Entry (0, q) is entry q of the vector either way, so the two are one matrix.
-/
import Idealize.ShloMosaic.Lib.Pipeline.Value
import Idealize.ShloMosaic.Lib.ValueIdx

namespace OneRow

open Idealize.ShloMosaic Idealize.ShloMosaic.ValueIdx

variable {α : Type}

/-- The reshape of a vector to one row is the vector laid along axis 1 of a one-row matrix. -/
theorem shapeCast_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  obtain ⟨r, q, rfl⟩ : ∃ (r : Fin 1) (q : Fin n), i = ix2 r q := ⟨i 0, i 1, eq_ix2 i⟩
  have hr : r.val = 0 := by have := r.isLt; omega
  have e2 := shapeCast_apply x h1 (ix2 r q) (ix1 q) (by
    rw [Shape.rowMajor_val_two, Shape.rowMajor_val_one]
    show q.val = r.val * n + q.val
    rw [hr]; omega)
  have e3 := broadcastInDim_apply ![1] hd x (ix2 r q) (ix1 q) (by
    intro a
    match a with
    | ⟨0, _⟩ =>
      show q.val = if n = 1 then 0 else q.val
      split
      · have := q.isLt; omega
      · rfl)
  exact e2.trans e3.symm

end OneRow
-- ==== Proof.KernelValue.lean ====
/-
  The kernel program's result is the network's function of the seven argument arrays.

  Reading backwards from the result: the third launch leaves the larger of zero and (message sum + self term + bias row),
  entry by entry, of the arrays it finds; those are the graph convolution's message sum and self term of the second
  launch's output; the second launch leaves the product of (node features + what the edges bring) with the transposed
  node weights; what the edges bring is the first launch's output summed into destination nodes; and the first launch
  leaves the edge features times the transposed edge weights plus the edge bias along every row. Each launch's array is
  one closed function of its inputs, and each host stretch is the reference's own operations, so the composition is the
  network as the reference spells it. The one re-spelling on the way: the kernel program reshapes each bias vector to a
  one-row matrix where the reference lays it along axis 1 of one, which is the same matrix.
-/
import proofs.«162904_j53257594471012_1_alg».proof.Proof.EdgeLayer
import proofs.«162904_j53257594471012_1_alg».proof.Proof.NodeLayer
import proofs.«162904_j53257594471012_1_alg».proof.Proof.Combine
import proofs.«162904_j53257594471012_1_alg».proof.Proof.HostStretch
import proofs.«162904_j53257594471012_1_alg».proof.Proof.LibOneRow

set_option maxRecDepth 16384

noncomputable section

namespace Cert.KernelIdeal.KernelValue

open Cert.KernelIdeal Cert.KernelIdeal.Gen
open Idealize.ShloMosaic Idealize.ShloMosaic.TcCoe Idealize.SL.Sem
open Cert.ReferenceIdeal (Chain.sources Chain.targets Chain.intoTargets Chain.messages Chain.selfTerm Chain.edgeLayer Chain.nodeLayer
  Chain.combine Chain.network Chain.alongRows50000)

variable (m : (ℓ : Loc nD τ sig) → Buf (Elt Ideal) ℓ) (ρ : Dev nD → PrngReg)

/-- The first launch's output array is the edge layer of the arguments. -/
theorem first_output (c : Dev nD) :
    W2 m ρ c (Proc.devRef .tc main_v6)
      = Chain.edgeLayer (m ((c : Thread nD τ).loc main_arg1)) (m ((c : Thread nD τ).loc main_arg2)) (m ((c : Thread nD τ).loc main_arg3)) := by
  refine (W2_arr m ρ c 3).trans ?_
  rw [EdgeLayer.array_after (V1 m ρ) c Cert.ReferenceIdeal.Gen.bcast_S1x128_S600000x128_0_1,
    Stretch.first_features m ρ c, Stretch.first_weights m ρ c, Stretch.first_bias m ρ c,
    OneRow.shapeCast_eq_broadcastInDim _ _ Cert.ReferenceIdeal.Gen.bcast_S128_S1x128_1]
  rfl

/-- The second launch's output array is the node layer of the node features and what the edges bring. -/
theorem second_output (c : Dev nD) :
    W4 m ρ c (Proc.devRef .tc main_v11)
      = Chain.nodeLayer (m ((c : Thread nD τ).loc main_arg0))
          (Chain.intoTargets (Chain.targets (m ((c : Thread nD τ).loc main_arg6)))
            (Chain.edgeLayer (m ((c : Thread nD τ).loc main_arg1)) (m ((c : Thread nD τ).loc main_arg2)) (m ((c : Thread nD τ).loc main_arg3))))
          (m ((c : Thread nD τ).loc main_arg4)) := by
  refine (W4_arr m ρ c 3).trans ?_
  rw [NodeLayer.array_after (V3 m ρ) c, Stretch.second_features m ρ c, Stretch.second_aggregate m ρ c,
    Stretch.second_weights m ρ c, first_output m ρ c]
  rfl

/-- The result array is the network of the arguments. -/
theorem result (c : Dev nD) :
    W8 m ρ c (Proc.devRef .tc main_v55)
      = Chain.network (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  refine (W8_arr m ρ c 3).trans ?_
  rw [Combine.array_after (V7 m ρ) c Cert.ReferenceIdeal.Gen.bcast_S1x128_S50000x128_0_1,
    Stretch.third_messages m ρ c, Stretch.third_self m ρ c, Stretch.third_bias m ρ c, second_output m ρ c,
    OneRow.shapeCast_eq_broadcastInDim _ _ Cert.ReferenceIdeal.Gen.bcast_S128_S1x128_1]
  rfl

end Cert.KernelIdeal.KernelValue

end
-- ==== Proof.RefValue.lean ====
/-
  The reference's result is the network's function of the seven argument arrays.

  The reference's run ends with its result array at the composition of its host operations over the arguments. That
  composition, regrouped, is the edge layer, the sum into destination nodes, the node layer, the graph convolution's
  message sum and self term, the bias and the final maximum with zero: the functions that name those steps, applied in
  that order. No arithmetic is involved: the two sides are one term.
-/
import proofs.«162904_j53257594471012_1_alg».proof.Proof.RefRun
import proofs.«162904_j53257594471012_1_alg».proof.Proof.Chain

noncomputable section

namespace Cert.ReferenceIdeal.RefValue

open Cert.ReferenceIdeal Cert.ReferenceIdeal.Gen Idealize.ShloMosaic Idealize.ShloMosaic.TcCoe Idealize.SL.Sem

variable {F : FTy → Type} [FloatOps F]

set_option maxRecDepth 16384 in
set_option maxHeartbeats 4000000 in
/-- The result array's composed term is the network of the launch contents of the seven arguments. -/
theorem result_eq (m : (ℓ : Loc nD τ sig) → Buf (Elt F) ℓ) (c : Dev nD) :
    Cert.ReferenceIdeal.Value.res_main_v61 (F := F) m c
      = Chain.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.Value.res_main_v61 Chain.network Chain.combine Chain.messages Chain.selfTerm Chain.nodeLayer
    Chain.intoTargets Chain.edgeLayer Chain.alongRows50000 Chain.coefficient Chain.weight Chain.degree Chain.fromEnd
    Chain.sources Chain.targets
  rfl

end Cert.ReferenceIdeal.RefValue

end
-- ==== Proof.lean ====
/-
  The certificate of a graph-convolution layer computed in three launches against its reference.

  THE TWO PROGRAMS. The reference computes, from node features `x`, edge features `ea`, an edge-index array and two
  weight matrices with their biases: an edge layer `ea · Weᵀ + be`; its sum into each edge's destination node, added to
  `x`; a node layer `(x + that) · Wcᵀ`; the symmetric-normalised graph convolution of the result (message sum over
  incoming edges plus a self term, each node weighted by the reciprocal square root of its degree); the output bias; and
  the larger of that and zero. The kernel program computes the two dense layers and the last entry-by-entry step in
  three launches, block of rows by block of rows, and everything between them with the reference's own host operations.

  WHY THEY AGREE over the extended reals. A row of a matrix product depends on the same row of the left factor alone, so
  blocks of rows of a product are the product of blocks of rows; a product accumulated into zeros is the product; a change
  of float format is the identity; and the last step is entry by entry. Hence each launch leaves one closed function of
  the arrays it reads, the same function the reference applies to the same arrays, and the host operations in between
  are literally shared. No sum is regrouped and no factor moved, so finiteness of the inputs is never used.

  THE FRAMES. The kernel program's two frames are the generated ones. The reference has no kernel: its frame is its run
  with the result dropped.

  THE IDEALIZATION. The ideal reading of the kernel program rewrote no operation, so there is nothing to preserve.
-/
import proofs.«162904_j53257594471012_1_alg».proof.Defs
import proofs.«162904_j53257594471012_1_alg».proof.Proof.Gen.Kernel
import proofs.«162904_j53257594471012_1_alg».proof.Proof.Gen.Kernel.Skeleton
import proofs.«162904_j53257594471012_1_alg».proof.Proof.Gen.Kernel.Launch
import proofs.«162904_j53257594471012_1_alg».proof.Proof.Gen.Kernel.Points
import proofs.«162904_j53257594471012_1_alg».proof.Proof.Gen.Kernel.Frame
import proofs.«162904_j53257594471012_1_alg».proof.Proof.Gen.KernelIdeal
import proofs.«162904_j53257594471012_1_alg».proof.Proof.Gen.KernelIdeal.Skeleton
import proofs.«162904_j53257594471012_1_alg».proof.Proof.Gen.KernelIdeal.Launch
import proofs.«162904_j53257594471012_1_alg».proof.Proof.Gen.KernelIdeal.Points
import proofs.«162904_j53257594471012_1_alg».proof.Proof.Gen.KernelIdeal.Frame
import proofs.«162904_j53257594471012_1_alg».proof.Proof.Gen.ReferenceIdeal
import proofs.«162904_j53257594471012_1_alg».proof.Proof.Gen.Pre_finite_inputs
import proofs.«162904_j53257594471012_1_alg».proof.Proof.KernelRun
import proofs.«162904_j53257594471012_1_alg».proof.Proof.KernelValue
import proofs.«162904_j53257594471012_1_alg».proof.Proof.RefRun
import proofs.«162904_j53257594471012_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs, and its arguments end as launched. -/
theorem frame_kernel : Cert.frame_Kernel := fun m ρ _ => Cert.Kernel.Gen.frame m ρ

/-- The kernel program read at the extended reals runs, and its arguments end as launched. -/
theorem frame_kernelIdeal : Cert.frame_KernelIdeal := fun m ρ _ => Cert.KernelIdeal.Gen.frame m ρ

/-- The reference runs, and its arguments end as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the network's function of those arguments in
    their result arrays: the kernel program by its three launches read as whole arrays, the reference by its run. -/
theorem algebraic : Cert.algebraic_KernelIdeal_ReferenceIdeal := by
  intro m ρ m' ρ' _ hagree
  refine ⟨fun c => Cert.ReferenceIdeal.Chain.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.KernelValue.result m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
